-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : IVec S16384x512 32) : IVec S_ 1 :=
  let main_c : IVec S_ 32 := constantI S_ 32 0#32
  let main_v0 : IVec S16384x512 32 := broadcastInDim S16384x512 ![] bcast_S_S16384x512 main_c
  let main_v1 : IVec S16384x512 1 := cmpi .sge main_arg0 main_v0
  let main_c_0 : IVec S_ 32 := constantI S_ 32 1101#32
  let main_v2 : IVec S16384x512 32 := broadcastInDim S16384x512 ![] bcast_S_S16384x512 main_c_0
  let main_v3 : IVec S16384x512 1 := cmpi .slt main_arg0 main_v2
  let main_v4 : IVec S16384x512 1 := andi main_v1 main_v3
  let main_c_1 : IVec S_ 1 := constantI S_ 1 1#1
  let main_v5 : IVec S_ 1 := (fun x v => Host.reduce IntOp.andi x v reducesTo_S16384x512_S_d0_1 h_S_) main_v4 main_c_1
  main_v5
-- ==== Kernel.lean ====
abbrev S16384x512 : Shape := ⟨2, ![16384, 512]⟩
abbrev S16384x9x128 : Shape := ⟨3, ![16384, 9, 128]⟩
abbrev S64x512 : Shape := ⟨2, ![64, 512]⟩
abbrev S64x9x128 : Shape := ⟨3, ![64, 9, 128]⟩
abbrev S1x9x1 : Shape := ⟨3, ![1, 9, 1]⟩
abbrev S64x1x512 : Shape := ⟨3, ![64, 1, 512]⟩
abbrev S64x9x512 : Shape := ⟨3, ![64, 9, 512]⟩
abbrev S1x1x128 : Shape := ⟨3, ![1, 1, 128]⟩
abbrev S64x512x1 : Shape := ⟨3, ![64, 512, 1]⟩
abbrev S64x512x128 : Shape := ⟨3, ![64, 512, 128]⟩
abbrev S16384x1152 : Shape := ⟨2, ![16384, 1152]⟩
abbrev S16384x1100 : Shape := ⟨2, ![16384, 1100]⟩

abbrev nBuf : Space → Nat
  | .hbm => 4
  | .vmem => 4
  | .smem => 0
  | _ => 0

abbrev bufTy : (tb : Table) → Fin (tcTables nBuf tb) → BufTy
  | .hbm, ⟨0, _⟩ => ⟨S16384x512, .i32⟩
  | .hbm, ⟨1, _⟩ => ⟨S16384x9x128, .f32⟩
  | .hbm, ⟨2, _⟩ => ⟨S16384x1152, .f32⟩
  | .hbm, ⟨3, _⟩ => ⟨S16384x1100, .f32⟩
  | .local _ .vmem, ⟨0, _⟩ => ⟨S64x512, .i32⟩
  | .local _ .vmem, ⟨1, _⟩ => ⟨S64x512, .i32⟩
  | .local _ .vmem, ⟨2, _⟩ => ⟨S64x9x128, .f32⟩
  | .local _ .vmem, ⟨3, _⟩ => ⟨S64x9x128, .f32⟩
  | _, _ => ⟨S16384x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x512_S64x512_0_0 : ∀ a, (![0, 0] : Fin 2 → Nat) a + S64x512.size a ≤ S64x512.size a
  h_S64x512 : 0 < S64x512.numel
  iota_S1x9x1_d1_w32 : S1x9x1.Iotas .tc 32 [1]
  shapeCasts_S64x512_S64x1x512 : S64x512.ShapeCasts S64x1x512
  broadcasts_S64x1x512_S64x9x512 : S64x1x512.Broadcasts S64x9x512
  broadcasts_S1x9x1_S64x9x512 : S1x9x1.Broadcasts S64x9x512
  natLt_1_32 : 1 < 32
  bitsLt_bf16_f32 : FTy.bits .bf16 < FTy.bits .f32
  iota_S1x1x128_d2_w32 : S1x1x128.Iotas .tc 32 [2]
  shapeCasts_S64x512_S64x512x1 : S64x512.ShapeCasts S64x512x1
  broadcasts_S64x512x1_S64x512x128 : S64x512x1.Broadcasts S64x512x128
  broadcasts_S1x1x128_S64x512x128 : S1x1x128.Broadcasts S64x512x128
  inb_S64x9x128_S64x9x128_0_0_0 : ∀ a, (![0, 0, 0] : Fin 3 → Nat) a + S64x9x128.size a ≤ S64x9x128.size a
  h_S64x9x128 : 0 < S64x9x128.numel
  shapeCasts_S16384x9x128_S16384x1152 : S16384x9x128.ShapeCasts S16384x1152
  slices_S16384x1152_S16384x1100_0_1 : S16384x1152.Slices ![0, 1] S16384x1100
  dot_S64x9x512_S64x512x128_S64x9x128_2_1_1_2_0_0_wf : DotDims.WF S64x9x512 S64x512x128 S64x9x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S16384x512.size a
  hwx0_0 : ∀ i : grid0.Coords, EltTy.bits .i32 = 32 ∨ (Rect.block (s := S16384x512) S64x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x9x128.size a ≤ S16384x9x128.size a
  hwx0_1 : ∀ i : grid0.Coords, EltTy.bits .f32 = 32 ∨ (Rect.block (s := S16384x9x128) S64x9x128.size (cc0_transform_1 i) (hinb0_1 i)).WholeWords (EltTy.packing .f32)

variable [Facts₀]

def dot_S64x9x512_S64x512x128_S64x9x128_2_1_1_2_0_0 : DotDims S64x9x512 S64x512x128 S64x9x128 where
  lhsContracting := [2]
  rhsContracting := [1]
  lhsNonContracting := [1]
  rhsNonContracting := [2]
  lhsBatch := [0]
  rhsBatch := [0]
  wf := dot_S64x9x512_S64x512x128_S64x9x128_2_1_1_2_0_0_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x9x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x512 : Shape := ⟨2, ![16384, 512]⟩
abbrev S_ : Shape := ⟨0, ![]⟩
abbrev S16384x1101 : Shape := ⟨2, ![16384, 1101]⟩
abbrev S16384 : Shape := ⟨1, ![16384]⟩
abbrev S16384x1 : Shape := ⟨2, ![16384, 1]⟩
abbrev S16384x512x1 : Shape := ⟨3, ![16384, 512, 1]⟩
abbrev S16384x512x2 : Shape := ⟨3, ![16384, 512, 2]⟩
abbrev S16384x1100 : Shape := ⟨2, ![16384, 1100]⟩

abbrev nBuf : Space → Nat
  | .hbm => 27
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S_, .f32⟩
  | .hbm, ⟨2, _⟩ => ⟨S16384x1101, .f32⟩
  | .hbm, ⟨3, _⟩ => ⟨S16384, .i32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S_, .i32⟩
  | .hbm, ⟨13, _⟩ => ⟨S16384x512, .i32⟩
  | .hbm, ⟨14, _⟩ => ⟨S16384x512, .i1⟩
  | .hbm, ⟨15, _⟩ => ⟨S_, .i32⟩
  | .hbm, ⟨16, _⟩ => ⟨S16384x512, .i32⟩
  | .hbm, ⟨17, _⟩ => ⟨S16384x512, .i32⟩
  | .hbm, ⟨18, _⟩ => ⟨S16384x512, .i32⟩
  | .hbm, ⟨19, _⟩ => ⟨S16384x512, .i32⟩
  | .hbm, ⟨20, _⟩ => ⟨S16384x512x1, .i32⟩
  | .hbm, ⟨21, _⟩ => ⟨S16384x512x1, .i32⟩
  | .hbm, ⟨22, _⟩ => ⟨S16384x512x2, .i32⟩
  | .hbm, ⟨23, _⟩ => ⟨S_, .f32⟩
  | .hbm, ⟨24, _⟩ => ⟨S16384x512, .f32⟩
  | .hbm, ⟨25, _⟩ => ⟨S16384x1101, .f32⟩
  | .hbm, ⟨26, _⟩ => ⟨S16384x1100, .f32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S16384x1101 : S_.BroadcastsInDim S16384x1101 (![] : Fin 0 → Fin S16384x1101.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  slices_S16384x1101_S16384x1100_0_1 : S16384x1101.Slices ![0, 1] S16384x1100
  scatter_S16384x1101_S16384x512x2_S16384x512_n_01_01_2_wf : ScatterDims.WF S16384x1101 S16384x512x2 S16384x512 [] [0, 1] [0, 1] 2

variable [Facts₀]

def scatter_S16384x1101_S16384x512x2_S16384x512_n_01_01_2 : ScatterDims S16384x1101 S16384x512x2 S16384x512 where
  updateWindowDims := []
  insertedWindowDims := [0, 1]
  scatterDimsToOperandDims := [0, 1]
  indexVectorDim := 2
  wf := scatter_S16384x1101_S16384x512x2_S16384x512_n_01_01_2_wf

class Facts : Prop extends Facts₀ where

variable [Facts]
-- ==== Proof.Hist.Range.lean ====
/-
  The precondition, read: it holds of an id array exactly when every id, read signed, is at least 0 and below
  1101 — an index in range of the reference's count axis. Such a word reads the same unsigned, so every id is a
  natural number below 1101.
-/
import proofs.«408981_j22763326668852_2_alg».proof.Pre_any_inputs
import proofs.«408981_j22763326668852_2_alg».proof.Proof.Gen.Pre_any_inputs
import Idealize.ShloMosaic.Lib.ReduceAll
import Idealize.ShloMosaic.Lib.Affine
import Idealize.ShloMosaic.Lib.ValueIdx
import Idealize.ShloMosaic.Lib.StableHlo.Predicate

namespace Cert.Hist

open Idealize.ShloMosaic Cert.Pre_any_inputs Cert.Pre_any_inputs.Gen

instance : Subsingleton S_.Idx := ⟨fun a b => funext fun d => d.elim0⟩

/-- A word that is at least 0 and below 1101 when read signed is below 1101 when read unsigned. -/
theorem toNat_lt_of_signed (v : BitVec 32) (h0 : IntOp.cmpi .sge v 0#32 = 1#1) (h1 : IntOp.cmpi .slt v 1101#32 = 1#1) :
    v.toNat < 1101 := by
  have a0 : (0 : ℤ) ≤ v.toInt := by
    have := (StableHlo.Predicate.ofBool_eq_one_iff _).mp h0
    simpa [BitVec.sle] using this
  have a1 : v.toInt < 1101 := by
    have := (StableHlo.Predicate.ofBool_eq_one_iff _).mp h1
    simpa [BitVec.slt] using this
  have hc := BitVec.toInt_eq_toNat_cond v
  have hl := v.isLt
  split at hc <;> omega

/-- Under the precondition every id is a natural number below 1101. -/
theorem ids_in_range {F : FTy → Type} [FloatOps F] (x : IVec S16384x512 32)
    (h : Cert.Pre_any_inputs.fn (F := F) x = fun _ => 1#1) (i : S16384x512.Idx) : (x i).toNat < 1101 := by
  have h0 := congrFun h (fun d => d.elim0)
  dsimp only [Cert.Pre_any_inputs.fn] at h0
  have h1 := Host.reduce_andi_all _ _ _ _ _ h0 i
  obtain ⟨ha, hb⟩ := IntOp.andi_eq_one.mp h1
  exact toNat_lt_of_signed (x i) ha hb

end Cert.Hist
-- ==== Proof.Hist.Words.lean ====
/-
  Token ids as 32-bit words. A word below 2³¹ is a natural number `v`; its arithmetic shift right by 7 is the
  quotient `v / 128`, its conjunction with 127 the remainder `v % 128`, so the pair (shift, mask) determines
  the word: `v = 128 · (v / 128) + v % 128`. Comparing the two halves with a bin's two coordinates `(h, l)`
  is comparing the word with the bin's number `128 · h + l`.
-/
import Idealize.ShloMosaic.PureOps.Ideal
import Idealize.ShloMosaic.Lib.StableHlo.Predicate

namespace Cert.Hist

open Idealize.ShloMosaic

/-- The arithmetic shift right by 7 of a non-negative word is its quotient by 128. -/
theorem shrsi7_toNat (v : BitVec 32) (hv : v.toNat < 2 ^ 31) : (IntOp.shrsi .vector v 7#32).toNat = v.toNat / 128 := by
  have hm : v.msb = false := BitVec.msb_eq_false_iff_two_mul_lt.mpr (by omega)
  unfold IntOp.shrsi
  rw [if_pos (by decide)]
  show (v.sshiftRight (7#32).toNat).toNat = _
  rw [BitVec.sshiftRight_eq_of_msb_false hm, BitVec.toNat_ushiftRight, Nat.shiftRight_eq_div_pow]
  rfl

/-- The conjunction of a word with 127 is its remainder by 128. -/
theorem andi127_toNat (v : BitVec 32) : (IntOp.andi v 127#32).toNat = v.toNat % 128 := by
  unfold IntOp.andi
  rw [BitVec.toNat_and]
  exact Nat.and_two_pow_sub_one_eq_mod v.toNat 7

/-- A word equals a small number's word exactly when it is that number. -/
theorem eq_ofNat_iff (a : BitVec 32) (n : Nat) (hn : n < 2 ^ 32) : a = BitVec.ofNat 32 n ↔ a.toNat = n := by
  rw [← BitVec.toNat_inj, BitVec.toNat_ofNat, Nat.mod_eq_of_lt hn]

/-- The two halves of a non-negative word are the two coordinates `(h, l)` of a bin, `l < 128`, exactly when the
    word is the bin's number `128 · h + l`. -/
theorem halves_iff (v : BitVec 32) (hv : v.toNat < 2 ^ 31) (h l : Nat) (hh : h < 2 ^ 32) (hl : l < 128) :
    (IntOp.shrsi .vector v 7#32 = BitVec.ofNat 32 h ∧ IntOp.andi v 127#32 = BitVec.ofNat 32 l)
      ↔ v.toNat = 128 * h + l := by
  rw [eq_ofNat_iff _ h hh, eq_ofNat_iff _ l (by omega), shrsi7_toNat v hv, andi127_toNat]
  omega

/-- Counting a negative index from the end of its axis (adding the extent `n` where the word is negative) leaves a
    non-negative word alone. -/
theorem norm_nonneg (v n : BitVec 32) (hv : v.toNat < 2 ^ 31) :
    Scalar.select (IntOp.cmpi .slt v 0#32) (IntOp.addi v n) v = v := by
  unfold Scalar.select
  rw [if_neg]
  intro h
  have h' : v.toNat < (0#32 : BitVec 32).toNat := (StableHlo.Predicate.slt_iff_toNat hv (by decide)).mp h
  exact absurd h' (Nat.not_lt_zero _)

/-- A one-bit condition widened to a word and converted to a float, at the exact instance: one where the
    condition holds, zero where it does not. -/
theorem indicator (b : BitVec 1) :
    (Scalar.sitofp (F := Ideal) .f32 (b.setWidth 32) : EReal) = if b = 1#1 then (1 : EReal) else 0 := by
  rw [Ideal.scalar_sitofp_def]
  have h : (b.setWidth 32).toInt = if b = 1#1 then (1 : ℤ) else 0 := by revert b; decide
  rw [h]
  split <;> simp

end Cert.Hist
-- ==== Proof.Hist.Body.lean ====
/-
  The kernel body's one store, read at an element. For a block `x` of 64 rows of 512 token ids the body builds
  two 0/1 arrays — `[row, h, s]`: the id's upper half (its shift right by 7) is `h`; `[row, s, l]`: its lower
  half (its conjunction with 127) is `l` — and contracts them over the position `s` on the matrix unit, into a
  zero accumulator. At the exact instance a format change is the identity and the product of the two 0/1 factors
  is 1 exactly where both conditions hold, so element `(row, h, l)` of the stored block is the sum over the 512
  positions of the product of the two indicators.
-/
import proofs.«408981_j22763326668852_2_alg».proof.Proof.Gen.KernelIdeal.Skeleton
import proofs.«408981_j22763326668852_2_alg».proof.Proof.Hist.Words
import Idealize.ShloMosaic.Lib.ValueIdx
import Idealize.ShloMosaic.Lib.Pipeline.Value
import Idealize.ShloMosaic.PureOps.Ideal.Laws

noncomputable section

open scoped BigOperators

namespace Cert.KernelIdeal.Hist

open Cert.KernelIdeal Cert.KernelIdeal.Gen Idealize.ShloMosaic Idealize.ShloMosaic.ValueIdx Cert.Hist

/-! ## The layout steps at an index -/

/-- A `[64, 512]` array given a unit middle axis and laid along 9 copies of it: element `(p, h, s)` is `(p, s)`. -/
theorem mid_apply {α : Type} (v : S64x512.Idx → α) (p : Fin 64) (h : Fin 9) (s : Fin 512) :
    broadcastTo S64x9x512 (shapeCast S64x1x512 v shapeCasts_S64x512_S64x1x512) broadcasts_S64x1x512_S64x9x512 (ix3 p h s)
      = v (ix2 p s) := by
  rw [broadcastTo_apply _ _ (ix3 p h s) (ix3 p (0 : Fin 1) s) (fun a => by
    match a with
    | ⟨0, _⟩ => show p.val = if (64 : Nat) = 1 then 0 else p.val; rw [if_neg (by decide)]
    | ⟨1, _⟩ => show 0 = if (1 : Nat) = 1 then 0 else h.val; rw [if_pos rfl]
    | ⟨2, _⟩ => show s.val = if (512 : Nat) = 1 then 0 else s.val; rw [if_neg (by decide)])]
  exact shapeCast_apply v _ _ _ (by
    rw [Shape.rowMajor_val_three, Shape.rowMajor_val_two]
    show p.val * 512 + s.val = (p.val * 1 + 0) * 512 + s.val
    omega)

/-- A `[64, 512]` array given a unit last axis and laid along 128 copies of it: element `(p, s, l)` is `(p, s)`. -/
theorem last_apply {α : Type} (v : S64x512.Idx → α) (p : Fin 64) (s : Fin 512) (l : Fin 128) :
    broadcastTo S64x512x128 (shapeCast S64x512x1 v shapeCasts_S64x512_S64x512x1) broadcasts_S64x512x1_S64x512x128 (ix3 p s l)
      = v (ix2 p s) := by
  rw [broadcastTo_apply _ _ (ix3 p s l) (ix3 p s (0 : Fin 1)) (fun a => by
    match a with
    | ⟨0, _⟩ => show p.val = if (64 : Nat) = 1 then 0 else p.val; rw [if_neg (by decide)]
    | ⟨1, _⟩ => show s.val = if (512 : Nat) = 1 then 0 else s.val; rw [if_neg (by decide)]
    | ⟨2, _⟩ => show 0 = if (1 : Nat) = 1 then 0 else l.val; rw [if_pos rfl])]
  exact shapeCast_apply v _ _ _ (by
    rw [Shape.rowMajor_val_three, Shape.rowMajor_val_two]
    show p.val * 512 + s.val = (p.val * 512 + s.val) * 1 + 0
    omega)

/-- The counter along the middle axis of `[1, 9, 1]`, laid over `[64, 9, 512]`: element `(p, h, s)` is the word `h`. -/
theorem iota_mid_apply (p : Fin 64) (h : Fin 9) (s : Fin 512) :
    broadcastTo S64x9x512 (iota .tc S1x9x1 32 [1] iota_S1x9x1_d1_w32) broadcasts_S1x9x1_S64x9x512 (ix3 p h s)
      = BitVec.ofNat 32 h.val := by
  rw [broadcastTo_apply _ _ (ix3 p h s) (ix3 (0 : Fin 1) h (0 : Fin 1)) (fun a => by
    match a with
    | ⟨0, _⟩ => show 0 = if (1 : Nat) = 1 then 0 else p.val; rw [if_pos rfl]
    | ⟨1, _⟩ => show h.val = if (9 : Nat) = 1 then 0 else h.val; rw [if_neg (by decide)]
    | ⟨2, _⟩ => show 0 = if (1 : Nat) = 1 then 0 else s.val; rw [if_pos rfl])]
  show BitVec.ofNat 32 (0 * 9 + h.val) = _
  rw [Nat.zero_mul, Nat.zero_add]

/-- The counter along the last axis of `[1, 1, 128]`, laid over `[64, 512, 128]`: element `(p, s, l)` is the word `l`. -/
theorem iota_last_apply (p : Fin 64) (s : Fin 512) (l : Fin 128) :
    broadcastTo S64x512x128 (iota .tc S1x1x128 32 [2] iota_S1x1x128_d2_w32) broadcasts_S1x1x128_S64x512x128 (ix3 p s l)
      = BitVec.ofNat 32 l.val := by
  rw [broadcastTo_apply _ _ (ix3 p s l) (ix3 (0 : Fin 1) (0 : Fin 1) l) (fun a => by
    match a with
    | ⟨0, _⟩ => show 0 = if (1 : Nat) = 1 then 0 else p.val; rw [if_pos rfl]
    | ⟨1, _⟩ => show 0 = if (1 : Nat) = 1 then 0 else s.val; rw [if_pos rfl]
    | ⟨2, _⟩ => show l.val = if (128 : Nat) = 1 then 0 else l.val; rw [if_neg (by decide)])]
  show BitVec.ofNat 32 (0 * 128 + l.val) = _
  rw [Nat.zero_mul, Nat.zero_add]

/-! ## The two 0/1 arrays -/

/-- The 0/1 array of where two word arrays agree, as the body makes it: the comparison widened to a word,
    converted to a float and narrowed to the matrix unit's format. -/
def onehot {s : Shape} (A B : IVec s 32) : FVec Ideal s .bf16 :=
  truncf .bf16 (sitofp .f32 (extui 32 (cmpi .eq A B) (by decide))) (by decide)

/-- At the exact instance it is one where the words agree and zero elsewhere. -/
theorem onehot_apply {s : Shape} (A B : IVec s 32) (i : s.Idx) :
    onehot A B i = if A i = B i then (1 : EReal) else 0 := by
  show (Scalar.sitofp (F := Ideal) .f32 ((IntOp.cmpi .eq (A i) (B i)).setWidth 32) : EReal) = _
  rw [indicator]
  simp only [StableHlo.Predicate.cmpi_eq_iff]

/-! ## The contraction -/

/-- The body's contraction: `[64, 9, 512] × [64, 512, 128] → [64, 9, 128]`, batched over the rows, summed over the
    512 positions. -/
abbrev D := dot_S64x9x512_S64x512x128_S64x9x128_2_1_1_2_0_0

theorem lhs_0 (j : S64x9x128.Idx) (k : D.contr.Idx) : (D.lhsIdx j k 0).val = (j 0).val := rfl
theorem lhs_1 (j : S64x9x128.Idx) (k : D.contr.Idx) : (D.lhsIdx j k 1).val = (j 1).val := rfl
theorem lhs_2 (j : S64x9x128.Idx) (k : D.contr.Idx) : (D.lhsIdx j k 2).val = (k ⟨0, by decide⟩).val :=
  DotDims.lhsIdx_val_of_single D rfl j k
theorem rhs_0 (j : S64x9x128.Idx) (k : D.contr.Idx) : (D.rhsIdx j k 0).val = (j 0).val := rfl
theorem rhs_1 (j : S64x9x128.Idx) (k : D.contr.Idx) : (D.rhsIdx j k 1).val = (k ⟨0, by decide⟩).val :=
  DotDims.rhsIdx_val_of_single D rfl j k
theorem rhs_2 (j : S64x9x128.Idx) (k : D.contr.Idx) : (D.rhsIdx j k 2).val = (j 2).val := rfl

/-- At result element `(p, h, l)` and position `s` the left operand is read at `(p, h, s)`, -/
theorem lhs_idx (p : Fin 64) (h : Fin 9) (l : Fin 128) (s : Fin 512) :
    D.lhsIdx (ix3 p h l) ((contrEquiv1 D 512 rfl rfl).symm s) = ix3 p h s := by
  funext a; refine Fin.ext ?_
  match a with
  | ⟨0, _⟩ => exact lhs_0 _ _
  | ⟨1, _⟩ => exact lhs_1 _ _
  | ⟨2, _⟩ => exact (lhs_2 _ _).trans (contrEquiv1_symm_val D 512 rfl rfl s)

/-- and the right operand at `(p, s, l)`. -/
theorem rhs_idx (p : Fin 64) (h : Fin 9) (l : Fin 128) (s : Fin 512) :
    D.rhsIdx (ix3 p h l) ((contrEquiv1 D 512 rfl rfl).symm s) = ix3 p s l := by
  funext a; refine Fin.ext ?_
  match a with
  | ⟨0, _⟩ => exact rhs_0 _ _
  | ⟨1, _⟩ => exact (rhs_1 _ _).trans (contrEquiv1_symm_val D 512 rfl rfl s)
  | ⟨2, _⟩ => exact rhs_2 _ _

/-! ## The stored block at an element -/

/-- The body's payload is the contraction of the two 0/1 arrays into a zero accumulator. -/
theorem pay_eq (x0 : Vec Ideal S64x512 .i32) :
    k0_pay1 (F := Ideal) x0
      = matmul D none
          (onehot (broadcastTo S64x9x512 (shapeCast S64x1x512 (shrsi x0 (broadcast S64x512 7#32)) shapeCasts_S64x512_S64x1x512) broadcasts_S64x1x512_S64x9x512)
            (broadcastTo S64x9x512 (iota .tc S1x9x1 32 [1] iota_S1x9x1_d1_w32) broadcasts_S1x9x1_S64x9x512))
          (onehot (broadcastTo S64x512x128 (shapeCast S64x512x1 (andi x0 (broadcast S64x512 127#32)) shapeCasts_S64x512_S64x512x1) broadcasts_S64x512x1_S64x512x128)
            (broadcastTo S64x512x128 (iota .tc S1x1x128 32 [2] iota_S1x1x128_d2_w32) broadcasts_S1x1x128_S64x512x128))
          (constant S64x9x128 .f32 0x00000000#32) := rfl

/-- Element `(p, h, l)` of the stored block: over the 512 positions of row `p`, the number of ids whose upper
    half is `h` and whose lower half is `l`, as a sum of products of indicators. -/
theorem pay_apply (x0 : Vec Ideal S64x512 .i32) (p : Fin 64) (h : Fin 9) (l : Fin 128) :
    k0_pay1 (F := Ideal) x0 (ix3 p h l)
      = ∑ s : Fin 512, (if IntOp.shrsi .vector (x0 (ix2 p s)) 7#32 = BitVec.ofNat 32 h.val then (1 : EReal) else 0)
          * (if IntOp.andi (x0 (ix2 p s)) 127#32 = BitVec.ofNat 32 l.val then (1 : EReal) else 0) := by
  rw [pay_eq]
  refine (Ideal.matmul_constant_zero_apply D none _ _ (ix3 p h l)).trans ?_
  rw [← Equiv.sum_comp (contrEquiv1 D 512 rfl rfl).symm]
  refine Finset.sum_congr rfl fun s _ => ?_
  rw [lhs_idx, rhs_idx, onehot_apply, onehot_apply, mid_apply, iota_mid_apply, last_apply, iota_last_apply]
  rfl

end Cert.KernelIdeal.Hist

end
-- ==== Proof.Hist.KernelValue.lean ====
/-
  The kernel's result array, read off its run. Grid point `t` of 256 takes rows `64 t … 64 t + 63` of the id
  array and writes back rows `64 t … 64 t + 63` of a `[16384, 9, 128]` array of bins; its block is the body's
  stored block of those rows, so the 256 blocks tile the bin array and the array ends holding, at `(b, h, l)`, the
  sum over row `b`'s 512 positions of the product of the two indicators (upper half is `h`, lower half is `l`).
  The two host lines after the call flatten a row's bins to `1152 = 9 · 128` columns and keep columns `1 … 1100`:
  element `(b, t')` of the result is the bin `((t' + 1) / 128, (t' + 1) % 128)` of row `b`.
-/
import proofs.«408981_j22763326668852_2_alg».proof.Proof.Gen.KernelIdeal.Frame
import proofs.«408981_j22763326668852_2_alg».proof.Proof.Hist.Body
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hist

open Cert.KernelIdeal Cert.KernelIdeal.Gen Idealize.ShloMosaic Idealize.ShloMosaic.TcCoe Idealize.SL.Sem
open Idealize.ShloMosaic.ValueIdx Cert.Hist
open Idealize.ShloMosaic.Pipeline (Dat)

variable (m : (ℓ : Loc nD τ sig) → Buf (Elt Ideal) ℓ) (ρ : Dev nD → PrngReg)

/-- The bin array of an id array: at `(b, h, l)`, over row `b`'s positions, the product of the indicators "the id's
    upper half is `h`" and "its lower half is `l`", summed. -/
def bins (X : S16384x512.Idx → BitVec 32) : S16384x9x128.Idx → EReal := fun i =>
  ∑ s : Fin 512, (if IntOp.shrsi .vector (X (ix2 (i 0) s)) 7#32 = BitVec.ofNat 32 (i 1).val then (1 : EReal) else 0)
    * (if IntOp.andi (X (ix2 (i 0) s)) 127#32 = BitVec.ofNat 32 (i 2).val then (1 : EReal) else 0)

theorem hz2 : (![0, 0] : Fin 2 → Nat) = fun _ => 0 := funext fun a => by fin_cases a <;> rfl
theorem hz3 : (![0, 0, 0] : Fin 3 → Nat) = fun _ => 0 := funext fun a => by fin_cases a <;> rfl

/-- A block of 64 rows that is rows `64 T …` of an id array stores, at `(p, h, l)`, the bin `(64 T + p, h, l)`. -/
theorem block_bins (X : S16384x512.Idx → BitVec 32) (x0 : Vec Ideal S64x512 .i32) (T : Nat) (hT : T < 256)
    (hx : ∀ (p : Fin 64) (s : Fin 512), x0 (ix2 p s) = X (ix2 (⟨T * 64 + p.val, by have := p.isLt; omega⟩ : Fin 16384) s))
    (p : Fin 64) (h : Fin 9) (l : Fin 128) :
    k0_pay1 (F := Ideal) x0 (ix3 p h l)
      = bins X (ix3 (⟨T * 64 + p.val, by have := p.isLt; omega⟩ : Fin 16384) h l) := by
  rw [pay_apply]
  unfold bins
  refine Finset.sum_congr rfl fun s _ => ?_
  rw [hx p s]

/-- The printed index maps over the grid: both windows move one block of rows per point. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- What point `t` writes back is block `t` of the bin array of the ids as the call finds them. -/
theorem flushed_eq (c : Dev nD) (t : Fin cfg0.N) :
    (dats m 0 c).flushed 1 t = ((cfg0.win 1).blk t).view.read (Elt Ideal) (bins (V m c main_arg0)) := by
  show (cfg0.win 1).cut (grid0.coords t) ((dats m 0 c).after 1 t) = _
  rw [after0_1]
  unfold out0_1
  rw [View.canon_unit_zero hz3]
  simp only [View.ld_unit_zero (S := S64x512) hz2]
  obtain ⟨e0, e1, e2, e3, e4⟩ := idx_facts t
  have hN : cfg0.N = 256 := N_0
  have htl : t.val < 256 := by have := t.isLt; omega
  funext y
  obtain ⟨p, h, l, rfl⟩ : ∃ (p : Fin 64) (h : Fin 9) (l : Fin 128), y = ix3 p h l := ⟨y 0, y 1, y 2, eq_ix3 y⟩
  show k0_pay1 (F := Ideal) (iblk m c 0 t) (ix3 p h l) = bins (V m c main_arg0) (((cfg0.win 1).blk t).view.emb (ix3 p h l))
  refine (block_bins (V m c main_arg0) (iblk m c 0 t) t.val htl (fun p s => ?_) p h l).trans ?_
  · show V m c main_arg0 (((cfg0.win 0).blk t).view.emb (ix2 p s)) = _
    congr 1
    funext a; apply Fin.ext
    match a with
    | ⟨0, _⟩ => show win0_0.index t (0 : Fin 2) * 64 + 1 * p.val = t.val * 64 + p.val; rw [e0]; omega
    | ⟨1, _⟩ => show win0_0.index t (1 : Fin 2) * 512 + 1 * s.val = s.val; rw [e1]; omega
  · congr 1
    funext a; apply Fin.ext
    match a with
    | ⟨0, _⟩ => show t.val * 64 + p.val = win0_1.index t (0 : Fin 3) * 64 + 1 * p.val; rw [e2]; omega
    | ⟨1, _⟩ => show h.val = win0_1.index t (1 : Fin 3) * 9 + 1 * h.val; rw [e3]; omega
    | ⟨2, _⟩ => show l.val = win0_1.index t (2 : Fin 3) * 128 + 1 * l.val; rw [e4]; omega

/-- An index of the bin array is in point `t`'s block iff each coordinate is in the block's range on its axis. -/
theorem mem_blk (t : Fin cfg0.N) (i : S16384x9x128.Idx) :
    i ∈ ((cfg0.win 1).blk t).view.set ↔ ∀ a : Fin 3, win0_1.index t a * S64x9x128.size a ≤ (i a).val ∧ (i a).val < win0_1.index t a * S64x9x128.size a + S64x9x128.size a := by
  show i ∈ ((View.whole main_v0).slice (win0_1.rect t)).set ↔ _
  rw [View.set_slice_whole, Rect.mem_set_unit]
  exact Iff.rfl

/-- The bin array after the call: every row is in the block of the point `row / 64`. -/
theorem final (c : Dev nD) : (dats m 0 c).arrAt 1 cfg0.N = bins (V m c main_arg0) :=
  (dats m 0 c).arrAt_eq_of_cover 1 (bins (V m c main_arg0)) (fun t _ => flushed_eq m c t) fun i => by
    have hN : cfg0.N = 256 := N_0
    have hi0 : (i 0).val < 16384 := (i 0).isLt
    have hi1 : (i 1).val < 9 := (i 1).isLt
    have hi2 : (i 2).val < 128 := (i 2).isLt
    refine ⟨⟨(i 0).val / 64, by rw [hN]; omega⟩, flush0_1 _, ?_⟩
    rw [mem_blk]
    obtain ⟨e0, e1, e2, e3, e4⟩ := idx_facts ⟨(i 0).val / 64, by rw [hN]; omega⟩
    intro a
    match a with
    | ⟨0, _⟩ =>
      show win0_1.index _ (0 : Fin 3) * 64 ≤ (i 0).val ∧ (i 0).val < win0_1.index _ (0 : Fin 3) * 64 + 64
      rw [e2]; show (i 0).val / 64 * 64 ≤ (i 0).val ∧ (i 0).val < (i 0).val / 64 * 64 + 64; omega
    | ⟨1, _⟩ =>
      show win0_1.index _ (1 : Fin 3) * 9 ≤ (i 1).val ∧ (i 1).val < win0_1.index _ (1 : Fin 3) * 9 + 9
      rw [e3]; omega
    | ⟨2, _⟩ =>
      show win0_1.index _ (2 : Fin 3) * 128 ≤ (i 2).val ∧ (i 2).val < win0_1.index _ (2 : Fin 3) * 128 + 128
      rw [e4]; omega

/-! ## The two host lines after the call -/

/-- The kernel's result as a function of the id array: the bin array flattened to 1152 columns, columns 1 … 1100 kept. -/
def result (X : S16384x512.Idx → BitVec 32) : S16384x1100.Idx → EReal :=
  extractStridedSlice S16384x1100 ![0, 1]
    (shapeCast S16384x1152 (bins X) shapeCasts_S16384x9x128_S16384x1152) slices_S16384x1152_S16384x1100_0_1

/-- What the lines after the call leave in the result buffer. -/
theorem tail_eq (c : Dev nD) :
    Pipeline.afterTail₀ cfgs (dats m) 0 (V0 m) [hostOps1] c main_v2 = result (V m c main_arg0) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.tc.devRef main_v0) = bins (V m c main_arg0) :=
    (Pipeline.withArrays_arr spec0 launch0.win.arr_inj c _ _ 1).trans (final m c)
  rw [e]
  rfl

/-- For ids in `[0, 1101)`, element `(b, t')` of the result is the number of positions of row `b` whose id is
    `t' + 1`: column `t' + 1` of the flattened bins is the bin `((t' + 1) / 128, (t' + 1) % 128)`, and an id has that
    upper and lower half exactly when it is `128 · ((t' + 1) / 128) + (t' + 1) % 128 = t' + 1`. -/
theorem result_apply (X : S16384x512.Idx → BitVec 32) (hx : ∀ i, (X i).toNat < 1101) (b : Fin 16384) (t' : Fin 1100) :
    result X (ix2 b t') = ∑ s : Fin 512, if (X (ix2 b s)).toNat = t'.val + 1 then (1 : EReal) else 0 := by
  have ht : t'.val < 1100 := t'.isLt
  have hq : (1 + t'.val) / 128 < 9 := by omega
  have hr : (1 + t'.val) % 128 < 128 := Nat.mod_lt _ (by decide)
  unfold result
  rw [extractStridedSlice_apply ![0, 1] _ _ (ix2 b t') (ix2 b (⟨1 + t'.val, by omega⟩ : Fin 1152)) (fun a => by
    match a with
    | ⟨0, _⟩ => show b.val = 0 + b.val; omega
    | ⟨1, _⟩ => show 1 + t'.val = 1 + t'.val; rfl)]
  rw [shapeCast_apply (bins X) _ (ix2 b (⟨1 + t'.val, by omega⟩ : Fin 1152))
    (ix3 b (⟨(1 + t'.val) / 128, hq⟩ : Fin 9) (⟨(1 + t'.val) % 128, hr⟩ : Fin 128)) (by
      rw [Shape.rowMajor_val_three, Shape.rowMajor_val_two]
      show (b.val * 9 + (1 + t'.val) / 128) * 128 + (1 + t'.val) % 128 = b.val * 1152 + (1 + t'.val)
      omega)]
  unfold bins
  refine Finset.sum_congr rfl fun s _ => ?_
  have hv := hx (ix2 b s)
  have key := halves_iff (X (ix2 b s)) (by omega) ((1 + t'.val) / 128) ((1 + t'.val) % 128) (by omega) hr
  show (if IntOp.shrsi .vector (X (ix2 b s)) 7#32 = BitVec.ofNat 32 ((1 + t'.val) / 128) then (1 : EReal) else 0)
      * (if IntOp.andi (X (ix2 b s)) 127#32 = BitVec.ofNat 32 ((1 + t'.val) % 128) then (1 : EReal) else 0) = _
  by_cases h1 : IntOp.shrsi .vector (X (ix2 b s)) 7#32 = BitVec.ofNat 32 ((1 + t'.val) / 128)
  · by_cases h2 : IntOp.andi (X (ix2 b s)) 127#32 = BitVec.ofNat 32 ((1 + t'.val) % 128)
    · have he : (X (ix2 b s)).toNat = t'.val + 1 := by have := key.mp ⟨h1, h2⟩; omega
      rw [if_pos h1, if_pos h2, if_pos he, one_mul]
    · have hne : ¬ (X (ix2 b s)).toNat = t'.val + 1 := fun h => h2 (key.mpr (by omega)).2
      rw [if_pos h1, if_neg h2, if_neg hne, mul_zero]
  · have hne : ¬ (X (ix2 b s)).toNat = t'.val + 1 := fun h => h1 (key.mpr (by omega)).1
    rw [if_neg h1, if_neg hne, zero_mul]

/-! ## The run, read -/

/-- Every weakly fair execution of the program ends with the result buffer at `result` of the ids, the ids unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (by decide)).trans (tail_eq m c),
        ((h c).1 0).trans (((dats m 0 c).arrAt_in 0 rfl _).trans ((A_eq m c 0).trans (V_main_arg0 m c)))⟩)
    (run_main m ρ)

end Cert.KernelIdeal.Hist

end
-- ==== Proof.LibScatterGrid.lean ====
/-
  A host scatter-add whose updates form a grid `[B, S]` with one (row, column) index pair per update — the
  index array `[B, S, 2]`, the pair on its last axis — into an operand `[K, C]`, read at one element at the
  exact (extended-real) instance: element `(k, c)` is the operand's element plus the updates over the grid
  positions whose pair, read signed, is `(k, c)`. A pair outside the operand (read signed, not clamped) drops
  its update, which the integer equations under the sum say by themselves: no element's coordinates equal it.
  This is the shape of `counts.at[rows, ids].add(v)` for a column of row numbers and an array of ids.
-/
import Idealize.ShloMosaic.PureOps.Ideal
import Idealize.ShloMosaic.PureOps.Contract
import Idealize.ShloMosaic.Lib.ValueIdx

noncomputable section

open scoped BigOperators

namespace Cert.Lib.ScatterGrid

open Idealize.ShloMosaic Idealize.ShloMosaic.ValueIdx

/-- An update lands at element `i` exactly when, on every axis, its start plus its window coordinate is
    `i`'s coordinate as an integer: being inside the operand is then automatic, and outside it no element matches. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro hf a
      have := congrArg (fun f => (f a).val) hf
      simp only at this
      have h' := h a
      omega
    · intro hf
      funext a
      apply Fin.ext
      have := hf a
      simp only
      omega
  · next h =>
    constructor
    · intro hf; exact absurd hf (by simp)
    · intro hf
      exfalso; apply h
      intro a
      have := hf a
      have := (i a).isLt
      omega

section Grid
variable {K C B S : Nat}

/-- The grid scatter's dimension numbers, as a record. -/
private abbrev gridDims (wf : ScatterDims.WF ⟨2, ![K, C]⟩ ⟨3, ![B, S, 2]⟩ ⟨2, ![B, S]⟩ [] [0, 1] [0, 1] 2) :
    ScatterDims ⟨2, ![K, C]⟩ ⟨3, ![B, S, 2]⟩ ⟨2, ![B, S]⟩ where
  updateWindowDims := []
  insertedWindowDims := [0, 1]
  scatterDimsToOperandDims := [0, 1]
  indexVectorDim := 2
  wf := wf

variable (wf : ScatterDims.WF ⟨2, ![K, C]⟩ ⟨3, ![B, S, 2]⟩ ⟨2, ![B, S]⟩ [] [0, 1] [0, 1] 2)
  (idx : IVec ⟨3, ![B, S, 2]⟩ 32) (j : (⟨2, ![B, S]⟩ : Shape).Idx)

private theorem grid_start0 : (gridDims wf).start j idx 0 = (idx (ix3 (j 0) (j 1) (0 : Fin 2))).toInt := by
  unfold ScatterDims.start
  rw [dif_pos (show (0 : Fin 2) ∈ ([0, 1] : List (Fin 2)) from by decide)]
  congr 2
  funext b; refine Fin.ext ?_
  match b with
  | ⟨0, _⟩ => rfl
  | ⟨1, _⟩ => rfl
  | ⟨2, _⟩ => rfl

private theorem grid_start1 : (gridDims wf).start j idx 1 = (idx (ix3 (j 0) (j 1) (1 : Fin 2))).toInt := by
  unfold ScatterDims.start
  rw [dif_pos (show (1 : Fin 2) ∈ ([0, 1] : List (Fin 2)) from by decide)]
  congr 2
  funext b; refine Fin.ext ?_
  match b with
  | ⟨0, _⟩ => rfl
  | ⟨1, _⟩ => rfl
  | ⟨2, _⟩ => rfl

private theorem grid_window (a : Fin 2) : (gridDims wf).window j a = 0 := by
  match a with
  | ⟨0, _⟩ => rfl
  | ⟨1, _⟩ => rfl

/-- Where update `j` of the grid scatter lands: at `(k, c)` exactly when its index pair is `(k, c)`. -/
private theorem grid_lands (k : Fin K) (c : Fin C) :
    (gridDims wf).resultIdx? j idx = some (ix2 k c)
      ↔ (idx (ix3 (j 0) (j 1) (0 : Fin 2))).toInt = (k.val : ℤ) ∧ (idx (ix3 (j 0) (j 1) (1 : Fin 2))).toInt = (c.val : ℤ) := by
  rw [resultIdx?_eq_some_iff, Fin.forall_fin_two, grid_start0, grid_start1, grid_window, grid_window]
  show (_ + ((0 : ℕ) : ℤ) = ((k.val : ℕ) : ℤ)) ∧ (_ + ((0 : ℕ) : ℤ) = ((c.val : ℕ) : ℤ)) ↔ _
  constructor
  · rintro ⟨h0, h1⟩
    exact ⟨by omega, by omega⟩
  · rintro ⟨h0, h1⟩
    exact ⟨by omega, by omega⟩

end Grid

/-- The grid scatter-add at element `(k, c)`: the operand's element plus the updates over the grid positions whose
    index pair, read signed, is `(k, c)`. -/
theorem scatterAdd_grid_read {K C B S : Nat} {φ : FTy} (d : ScatterDims ⟨2, ![K, C]⟩ ⟨3, ![B, S, 2]⟩ ⟨2, ![B, S]⟩)
    (h1 : d.updateWindowDims = []) (h2 : d.insertedWindowDims = [0, 1]) (h3 : d.scatterDimsToOperandDims = [0, 1])
    (h4 : d.indexVectorDim = 2)
    (x : (⟨2, ![K, C]⟩ : Shape).Idx → EReal) (idx : IVec ⟨3, ![B, S, 2]⟩ 32)
    (upd : (⟨2, ![B, S]⟩ : Shape).Idx → EReal) (k : Fin K) (c : Fin C) :
    Host.scatterAdd (F := Ideal) (φ := φ) d x idx upd (ix2 k c)
      = x (ix2 k c) + ∑ j ∈ Finset.univ.filter (fun j : (⟨2, ![B, S]⟩ : Shape).Idx =>
          (idx (ix3 (j 0) (j 1) (0 : Fin 2))).toInt = (k.val : ℤ) ∧ (idx (ix3 (j 0) (j 1) (1 : Fin 2))).toInt = (c.val : ℤ)),
          upd j := by
  obtain ⟨uw, iw, sd, iv, wf⟩ := d
  dsimp only at h1 h2 h3 h4
  subst h1 h2 h3 h4
  show Ideal.hostScatterAdd (gridDims wf) x idx upd (ix2 k c) = _
  unfold Ideal.hostScatterAdd
  congr 1
  refine Finset.sum_congr ?_ (fun _ _ => rfl)
  ext j
  simp only [Finset.mem_filter, Finset.mem_univ, true_and]
  exact grid_lands wf idx j k c

/-- The same with the sum taken over the grid's two coordinates: element `(k, c)` is the operand's element plus,
    over every row `a` and position `s` of the grid, the update there if its index pair is `(k, c)`. -/
theorem scatterAdd_grid_sum {K C B S : Nat} {φ : FTy} (d : ScatterDims ⟨2, ![K, C]⟩ ⟨3, ![B, S, 2]⟩ ⟨2, ![B, S]⟩)
    (h1 : d.updateWindowDims = []) (h2 : d.insertedWindowDims = [0, 1]) (h3 : d.scatterDimsToOperandDims = [0, 1])
    (h4 : d.indexVectorDim = 2)
    (x : (⟨2, ![K, C]⟩ : Shape).Idx → EReal) (idx : IVec ⟨3, ![B, S, 2]⟩ 32)
    (upd : (⟨2, ![B, S]⟩ : Shape).Idx → EReal) (k : Fin K) (c : Fin C) :
    Host.scatterAdd (F := Ideal) (φ := φ) d x idx upd (ix2 k c)
      = x (ix2 k c) + ∑ a : Fin B, ∑ s : Fin S,
          if (idx (ix3 a s (0 : Fin 2))).toInt = (k.val : ℤ) ∧ (idx (ix3 a s (1 : Fin 2))).toInt = (c.val : ℤ)
          then upd (ix2 a s) else 0 := by
  rw [scatterAdd_grid_read d h1 h2 h3 h4, Finset.sum_filter, sum_idx2]
  rfl

end Cert.Lib.ScatterGrid

end
-- ==== Proof.Hist.Ref.lean ====
/-
  The reference, read at an element. It scatters a one for every position `(b', s)` of the id array into a zero
  array of `[16384, 1101]` counts at the pair (row number, id) — both first counted from the end of their axis
  where negative — and drops column 0. Row numbers are never negative, and an id in `[0, 1101)` is not either, so
  the pair is `(b', id)` itself; element `(b, t')` of the result is column `t' + 1` of the counts: the number of
  positions of row `b` whose id is `t' + 1`.
-/
import proofs.«408981_j22763326668852_2_alg».proof.Proof.Gen.ReferenceIdeal.Read
import proofs.«408981_j22763326668852_2_alg».proof.Proof.Hist.Words
import proofs.«408981_j22763326668852_2_alg».proof.Proof.LibScatterGrid
import Idealize.ShloMosaic.Lib.IdealHost
import Idealize.ShloMosaic.Lib.StableHlo.Predicate

noncomputable section

open scoped BigOperators

namespace Cert.ReferenceIdeal.Hist

open Cert.ReferenceIdeal Cert.ReferenceIdeal.Gen Cert.ReferenceIdeal.Read
open Idealize.ShloMosaic Idealize.ShloMosaic.ValueIdx Cert.Hist

variable (x0 : IVec S16384x512 32)

/-- The first component of the index pair at position `(b', s)` is the row number `b'`. -/
theorem rowIdx_apply (b' : Fin 16384) (s : Fin 512) :
    val_main_v16 (F := Ideal) x0 (ix3 b' s (0 : Fin 2)) = BitVec.ofNat 32 b'.val := by
  unfold val_main_v16
  rw [concatenate_pair_apply_left (s₁ := S16384x512x1) (s₂ := S16384x512x1) (2 : Fin 3) _ _ _ (ix3 b' s (0 : Fin 2)) rfl (ix3 b' s (0 : Fin 1))
    (fun a => by match a with | ⟨0, _⟩ => rfl | ⟨1, _⟩ => rfl | ⟨2, _⟩ => rfl)]
  rw [val_main_v14_apply, val_main_v13_apply, val_main_v7_apply, val_main_v4_apply, val_main_v6_apply,
    val_main_v2_apply, val_main_v3_apply, val_main_c_apply, val_main_v1_apply]
  refine norm_nonneg (BitVec.ofNat 32 b'.val) _ ?_
  rw [BitVec.toNat_ofNat]
  have := b'.isLt
  omega

/-- The second component is the id there, when the id is not negative. -/
theorem idIdx_apply (hx : ∀ i, (x0 i).toNat < 1101) (b' : Fin 16384) (s : Fin 512) :
    val_main_v16 (F := Ideal) x0 (ix3 b' s (1 : Fin 2)) = x0 (ix2 b' s) := by
  unfold val_main_v16
  rw [concatenate_pair_apply_right (s₁ := S16384x512x1) (s₂ := S16384x512x1) (2 : Fin 3) _ _ _ (ix3 b' s (1 : Fin 2)) rfl rfl (ix3 b' s (0 : Fin 1))
    (fun a ha => by
      match a, ha with
      | ⟨0, _⟩, _ => rfl
      | ⟨1, _⟩, _ => rfl
      | ⟨2, _⟩, ha => exact absurd rfl ha) rfl]
  rw [val_main_v15_apply, val_main_v12_apply, val_main_v9_apply, val_main_v11_apply, val_main_v8_apply,
    val_main_c_1_apply]
  have e : idx_main_v15 (ix3 b' s (0 : Fin 1)) = ix2 b' s := by
    funext a; match a with | ⟨0, _⟩ => rfl | ⟨1, _⟩ => rfl
  rw [e]
  refine Cert.Hist.norm_nonneg (x0 (ix2 b' s)) _ ?_
  have := hx (ix2 b' s)
  omega

/-- Element `(b, t')` of the reference's result: the number of positions of row `b` whose id is `t' + 1`. -/
theorem ref_apply (hx : ∀ i, (x0 i).toNat < 1101) (b : Fin 16384) (t' : Fin 1100) :
    val_main_v19 (F := Ideal) x0 (ix2 b t')
      = ∑ s : Fin 512, if (x0 (ix2 b s)).toNat = t'.val + 1 then (1 : EReal) else 0 := by
  rw [val_main_v19_apply]
  have hi : idx_main_v19 (ix2 b t') = ix2 b (⟨1 + t'.val, by have := t'.isLt; omega⟩ : Fin 1101) := by
    funext a; match a with | ⟨0, _⟩ => rfl | ⟨1, _⟩ => rfl
  rw [hi]
  unfold val_main_v18
  rw [Cert.Lib.ScatterGrid.scatterAdd_grid_sum _ rfl rfl rfl rfl]
  rw [val_main_v0_apply, val_main_cst_apply, Ideal.ofBits_def, Ideal.ofBits_zero_f32, zero_add]
  have step : ∀ (a : Fin 16384) (s : Fin 512),
      (if (val_main_v16 (F := Ideal) x0 (ix3 a s (0 : Fin 2))).toInt = (b.val : ℤ)
          ∧ (val_main_v16 (F := Ideal) x0 (ix3 a s (1 : Fin 2))).toInt
              = (((⟨1 + t'.val, by have := t'.isLt; omega⟩ : Fin 1101).val : ℕ) : ℤ)
        then val_main_v17 (F := Ideal) (ix2 a s) else 0)
        = if a = b then (if (x0 (ix2 a s)).toNat = t'.val + 1 then (1 : EReal) else 0) else 0 := by
    intro a s
    have hj : (x0 (ix2 a s)).toNat < 1101 := hx _
    have hb : a.val < 16384 := a.isLt
    rw [rowIdx_apply, idIdx_apply x0 hx, StableHlo.Predicate.toInt_ofNat_small _ (by omega),
      StableHlo.Predicate.toInt_eq_toNat_of_lt (by omega), val_main_v17_apply, val_main_cst_3_apply,
      Ideal.ofBits_def, Ideal.ofBits_one_f32]
    by_cases hab : a = b
    · rw [if_pos hab]
      refine if_congr ?_ rfl rfl
      constructor
      · rintro ⟨_, h1⟩
        have h1' : ((x0 (ix2 a s)).toNat : ℤ) = ((1 + t'.val : ℕ) : ℤ) := h1
        omega
      · intro h1
        refine ⟨by rw [hab], ?_⟩
        show ((x0 (ix2 a s)).toNat : ℤ) = ((1 + t'.val : ℕ) : ℤ)
        omega
    · rw [if_neg hab, if_neg]
      rintro ⟨h0, _⟩
      exact hab (Fin.ext (by omega))
  have fold : ∀ a : Fin 16384,
      (∑ s : Fin 512, if a = b then (if (x0 (ix2 a s)).toNat = t'.val + 1 then (1 : EReal) else 0) else 0)
        = if a = b then ∑ s : Fin 512, (if (x0 (ix2 a s)).toNat = t'.val + 1 then (1 : EReal) else 0) else 0 := by
    intro a
    split <;> simp
  simp only [step, fold, Finset.sum_ite_eq', Finset.mem_univ, if_true]

end Cert.ReferenceIdeal.Hist

end
-- ==== Proof.lean ====
/-
  A histogram of token ids, two ways. The input is `[16384, 512]` ids; the result is `[16384, 1100]` counts:
  entry `(b, t')` is the number of positions `s` of row `b` whose id is `t' + 1` (token 0 is dropped).

  The kernel splits an id `v` into its upper half `v >> 7` and its lower half `v & 127`, forms the 0/1 arrays
  "upper half is `h`" (`h < 9`) and "lower half is `l`" (`l < 128`), and contracts them over the positions: bin
  `(b, h, l)` is the number of positions whose id has those two halves. The rows' bins are flattened to
  `9 · 128 = 1152` columns and columns `1 … 1100` kept, so entry `(b, t')` is the bin
  `((t' + 1) / 128, (t' + 1) % 128)`. For a non-negative id the halves are quotient and remainder by 128, so the id
  has those halves exactly when it is `t' + 1`.

  The reference adds a one into a zero `[16384, 1101]` array at `(b, id)` for every position, counting a negative
  id from the end of the axis, and drops column 0. Under the precondition — every id an index in range of that
  axis, `0 ≤ id < 1101` — no id is counted from the end, and entry `(b, t')` is again the number of positions
  whose id is `t' + 1`. (Without it the two differ: an id of −1 is token 1100 to the reference and no token to the
  kernel.) Both sums are over the 512 positions of ones and zeros in the extended reals; no further law is needed.

  The frames of the two kernels are the generated ones; the reference's is its generated run with the value
  dropped; no rewrite was applied between the kernel and its idealization.
-/
import proofs.«408981_j22763326668852_2_alg».proof.Defs
import proofs.«408981_j22763326668852_2_alg».proof.Proof.Gen.Kernel
import proofs.«408981_j22763326668852_2_alg».proof.Proof.Gen.Kernel.Skeleton
import proofs.«408981_j22763326668852_2_alg».proof.Proof.Gen.Kernel.Launch
import proofs.«408981_j22763326668852_2_alg».proof.Proof.Gen.Kernel.Points
import proofs.«408981_j22763326668852_2_alg».proof.Proof.Gen.Kernel.Frame
import proofs.«408981_j22763326668852_2_alg».proof.Proof.Gen.KernelIdeal
import proofs.«408981_j22763326668852_2_alg».proof.Proof.Gen.KernelIdeal.Skeleton
import proofs.«408981_j22763326668852_2_alg».proof.Proof.Gen.KernelIdeal.Launch
import proofs.«408981_j22763326668852_2_alg».proof.Proof.Gen.KernelIdeal.Points
import proofs.«408981_j22763326668852_2_alg».proof.Proof.Gen.KernelIdeal.Frame
import proofs.«408981_j22763326668852_2_alg».proof.Proof.Gen.ReferenceIdeal
import proofs.«408981_j22763326668852_2_alg».proof.Proof.Gen.Pre_any_inputs
import proofs.«408981_j22763326668852_2_alg».proof.Proof.Gen.ReferenceIdeal.Run
import proofs.«408981_j22763326668852_2_alg».proof.Proof.Gen.ReferenceIdeal.Read
import proofs.«408981_j22763326668852_2_alg».proof.Proof.Hist.Range
import proofs.«408981_j22763326668852_2_alg».proof.Proof.Hist.KernelValue
import proofs.«408981_j22763326668852_2_alg».proof.Proof.Hist.Ref
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the ids, all in `[0, 1101)`: the kernel's result array ends at the flattened,
    sliced bins, the reference's at the sliced scatter; entry by entry both are the number of positions of the
    row whose id is the column's token. -/
theorem algebraic : Cert.algebraic_KernelIdeal_ReferenceIdeal := by
  intro m ρ m' ρ' hpre hagree
  refine ⟨fun c => Cert.KernelIdeal.Hist.result (m ((c.tc : Thread Cert.KernelIdeal.nD Cert.KernelIdeal.τ).loc Cert.KernelIdeal.main_arg0)),
    Cert.KernelIdeal.Hist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, hagree c]
  have hx := Cert.Hist.ids_in_range (F := Ideal) _ (hpre c)
  funext i
  obtain ⟨b, t', rfl⟩ : ∃ (b : Fin 16384) (t' : Fin 1100), i = ix2 b t' := ⟨i 0, i 1, eq_ix2 i⟩
  rw [Cert.ReferenceIdeal.Hist.ref_apply _ hx]
  exact (Cert.KernelIdeal.Hist.result_apply _ hx b t').symm

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
